-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S1000x512 : Shape := ⟨2, ![1000, 512]⟩
abbrev S_ : Shape := ⟨0, ![]⟩

class Facts : Prop where
  bcast_S_S1000x512 : S_.BroadcastsInDim S1000x512 (![] : Fin 0 → Fin S1000x512.rank)
  reducesTo_S1000x512_S_d0_1 : S1000x512.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn_part1 {F : FTy → Type} [FloatOps F] (main_arg2 : FVec F S1000x512 .f32) (main_v10 : IVec S_ 1) (main_v15 : IVec S262144 1) (main_c_5 : IVec S_ 1) : IVec S_ 1 :=
  let main_v16 : IVec S_ 1 := (fun x v => Host.reduce IntOp.andi x v reducesTo_S262144_S_d0 h_S_) main_v15 main_c_5
  let main_v17 : IVec S_ 1 := andi main_v10 main_v16
  let main_cst_6 : FVec F S_ .f32 := constant S_ .f32 0x00000000#32
  let main_v18 : FVec F S1000x512 .f32 := broadcastInDim S1000x512 ![] bcast_S_S1000x512 main_cst_6
  let main_v19 : IVec S1000x512 1 := cmpf .oeq main_arg2 main_v18
  let main_cst_7 : FVec F S_ .f32 := constant S_ .f32 0x3F800000#32
  let main_v20 : FVec F S1000x512 .f32 := broadcastInDim S1000x512 ![] bcast_S_S1000x512 main_cst_7
  let main_v21 : IVec S1000x512 1 := cmpf .oeq main_arg2 main_v20
  let main_v22 : IVec S1000x512 1 := ori main_v19 main_v21
  let main_c_8 : IVec S_ 1 := constantI S_ 1 1#1
  let main_v23 : IVec S_ 1 := (fun x v => Host.reduce IntOp.andi x v reducesTo_S1000x512_S_d0_1 h_S_) main_v22 main_c_8
  let main_v24 : IVec S_ 1 := andi main_v17 main_v23
  main_v24

def fn {F : FTy → Type} [FloatOps F] (main_arg0 : IVec S262144 32) (main_arg1 : IVec S262144 32) (main_arg2 : FVec F S1000x512 .f32) : IVec S_ 1 :=
  let main_v0 : FVec F S1000x512 .f32 := Host.absf main_arg2
  let main_cst : FVec F S_ .f32 := constant S_ .f32 0x7F800000#32
  let main_v1 : FVec F S1000x512 .f32 := broadcastInDim S1000x512 ![] bcast_S_S1000x512 main_cst
  let main_v2 : IVec S1000x512 1 := cmpf .olt main_v0 main_v1
  let main_c : IVec S_ 1 := constantI S_ 1 1#1
  let main_v3 : IVec S_ 1 := (fun x v => Host.reduce IntOp.andi x v reducesTo_S1000x512_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg0 main_v4
  let main_c_1 : IVec S_ 32 := constantI S_ 32 1000#32
  let main_v6 : IVec S262144 32 := broadcastInDim S262144 ![] bcast_S_S262144 main_c_1
  let main_v7 : IVec S262144 1 := cmpi .slt main_arg0 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  let main_c_3 : IVec S_ 32 := constantI S_ 32 0#32
  let main_v11 : IVec S262144 32 := broadcastInDim S262144 ![] bcast_S_S262144 main_c_3
  let main_v12 : IVec S262144 1 := cmpi .sge main_arg1 main_v11
  let main_c_4 : IVec S_ 32 := constantI S_ 32 1000#32
  let main_v13 : IVec S262144 32 := broadcastInDim S262144 ![] bcast_S_S262144 main_c_4
  let main_v14 : IVec S262144 1 := cmpi .slt main_arg1 main_v13
  let main_v15 : IVec S262144 1 := andi main_v12 main_v14
  let main_c_5 : IVec S_ 1 := constantI S_ 1 1#1
  fn_part1 (F := F) main_arg2 main_v10 main_v15 main_c_5
-- ==== Kernel.lean ====
abbrev S262144 : Shape := ⟨1, ![262144]⟩
abbrev S1000x512 : Shape := ⟨2, ![1000, 512]⟩
abbrev S_ : Shape := ⟨0, ![]⟩
abbrev S1024x512 : Shape := ⟨2, ![1024, 512]⟩
abbrev S16x128 : Shape := ⟨2, ![16, 128]⟩
abbrev S2048 : Shape := ⟨1, ![2048]⟩
abbrev S8x128 : Shape := ⟨2, ![8, 128]⟩
abbrev S1x1 : Shape := ⟨2, ![1, 1]⟩
abbrev S1x1024 : Shape := ⟨2, ![1, 1024]⟩
abbrev S2048x1 : Shape := ⟨2, ![2048, 1]⟩
abbrev S2048x1024 : Shape := ⟨2, ![2048, 1024]⟩
abbrev S2048x512 : Shape := ⟨2, ![2048, 512]⟩
abbrev S1 : Shape := ⟨1, ![1]⟩

abbrev nBuf : Space → Nat
  | .hbm => 15
  | .vmem => 8
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S1000x512, .f32⟩
  | .hbm, ⟨3, _⟩ => ⟨S_, .i32⟩
  | .hbm, ⟨4, _⟩ => ⟨S_, .f32⟩
  | .hbm, ⟨5, _⟩ => ⟨S1024x512, .f32⟩
  | .hbm, ⟨6, _⟩ => ⟨S1024x512, .bf16⟩
  | .hbm, ⟨7, _⟩ => ⟨S16x128, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2048, .i32⟩
  | .local _ .vmem, ⟨1, _⟩ => ⟨S2048, .i32⟩
  | .local _ .vmem, ⟨2, _⟩ => ⟨S2048, .i32⟩
  | .local _ .vmem, ⟨3, _⟩ => ⟨S2048, .i32⟩
  | .local _ .vmem, ⟨4, _⟩ => ⟨S1024x512, .bf16⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v34 : BitVec 1 := Scalar.cmpi .eq arg1 c63_i32
  let v35 : BitVec 32 := Scalar.extui v34
  let c0_i32_10 : BitVec 32 := 0#32
  let v36 : BitVec 1 := Scalar.cmpi .ne v35 c0_i32_10
  v36

def cc0_transform_0 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S1000x512_S1024x512_0240_000 : S1000x512.Pads (![0, 0] : Fin 2 → Nat) ![24, 0] ![0, 0] S1024x512
  h_S_ : 0 < S_.numel
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048_S2048_0 : ∀ a, (![0] : Fin 1 → Nat) a + S2048.size a ≤ S2048.size a
  h_S2048 : 0 < S2048.numel
  iota_S1x1024_d1_w32 : S1x1024.Iotas .tc 32 [1]
  shapeCasts_S2048_S2048x1 : S2048.ShapeCasts S2048x1
  broadcasts_S1x1024_S2048x1024 : S1x1024.Broadcasts S2048x1024
  broadcasts_S2048x1_S2048x1024 : S2048x1.Broadcasts S2048x1024
  natLt_1_32 : 1 < 32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S2048x512_S2048 : S2048x512.Reduces [1] S2048
  reduces_S2048x1_S1 : S2048x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S262144.size a
  hwx0_0 : ∀ i : grid0.Coords, EltTy.bits .i32 = 32 ∨ (Rect.block (s := S262144) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S262144.size a
  hwx0_1 : ∀ i : grid0.Coords, EltTy.bits .i32 = 32 ∨ (Rect.block (s := S262144) S2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_arg0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144 : Shape := ⟨1, ![262144]⟩
abbrev S1000x512 : Shape := ⟨2, ![1000, 512]⟩
abbrev S_ : Shape := ⟨0, ![]⟩
abbrev S262144x1 : Shape := ⟨2, ![262144, 1]⟩
abbrev S262144x512 : Shape := ⟨2, ![262144, 512]⟩

abbrev nBuf : Space → Nat
  | .hbm => 30
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S1000x512, .f32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x512, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x512, .f32⟩
  | .hbm, ⟨21, _⟩ => ⟨S262144x512, .i1⟩
  | .hbm, ⟨22, _⟩ => ⟨S262144x512, .i32⟩
  | .hbm, ⟨23, _⟩ => ⟨S_, .i32⟩
  | .hbm, ⟨24, _⟩ => ⟨S262144, .i32⟩
  | .hbm, ⟨25, _⟩ => ⟨S262144, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  natLt_1_32 : 1 < 32
  reducesTo_S262144x512_S262144_d1 : S262144x512.ReducesTo [1] S262144
  h_S_ : 0 < S_.numel
  reducesTo_S262144_S_d0 : S262144.ReducesTo [0] S_
  gather_S1000x512_S262144x1_S262144x512_1_0_n_n_0_1_1512_wf : GatherDims.WF S1000x512 S262144x1 S262144x512 [1] [0] [] [0] [] 1 ![1, 512]

variable [Facts₀]

def gather_S1000x512_S262144x1_S262144x512_1_0_n_n_0_1_1512 : GatherDims S1000x512 S262144x1 S262144x512 where
  offsetDims := [1]
  collapsedSliceDims := [0]
  operandBatchingDims := []
  startIndicesBatchingDims := []
  startIndexMap := [0]
  indexVectorDim := 1
  sliceSizes := ![1, 512]
  wf := gather_S1000x512_S262144x1_S262144x512_1_0_n_n_0_1_1512_wf

class Facts : Prop extends Facts₀ where

variable [Facts]
-- ==== Proof.HammingSpec.lean ====
/-
  The Hamming loss of two index vectors against a table of binary codewords, as ONE number.

  A table `cb` of 1000 codewords of length 512; two vectors of 262144 class words. A word below 1000 names
  the table row of that number (`rowOf`). The Hamming distance of two rows is the number of code positions where
  they differ (`mism`); the loss is the mean of that distance over the 262144 samples: the sum of the distances
  times 1/262144 (`loss`).

  Beside it, the arithmetic a one-hot formulation of the same number uses: the indicator of a class (`hot`), the
  table extended by 24 zero rows (`padded`), and, for a tile of 2048 samples, the sum over samples and code
  positions of |sum over the 1024 classes of (indicator of the first word − indicator of the second) · table entry|
  (`tileSum`).
-/
import Idealize.ShloMosaic.PureOps.Ideal
import Idealize.ShloMosaic.Lib.ValueIdx

noncomputable section

namespace Cert.Hamming

open Idealize.ShloMosaic Idealize.ShloMosaic.ValueIdx

/-- The two index vectors' shape, the table's, the padded table's, one tile of samples. -/
abbrev SB : Shape := ⟨1, ![262144]⟩
abbrev SCb : Shape := ⟨2, ![1000, 512]⟩
abbrev SPad : Shape := ⟨2, ![1024, 512]⟩
abbrev STile : Shape := ⟨1, ![2048]⟩

/-- The table row a class word names: a word below 1000 names the row of its own number. -/
def rowOf (w : BitVec 32) : Fin 1000 := ⟨w.toNat % 1000, Nat.mod_lt _ (by decide)⟩

/-- The Hamming distance of rows `a` and `b` of the table: the number of positions where they differ. -/
def mism (cb : SCb.Idx → EReal) (a b : Fin 1000) : ℕ :=
  (Finset.univ.filter fun j : Fin 512 => cb (ix2 a j) ≠ cb (ix2 b j)).card

/-- Sample `b`'s distance, as an extended real. -/
def dist (x0 x1 : SB.Idx → BitVec 32) (cb : SCb.Idx → EReal) (b : Fin 262144) : EReal :=
  ((mism cb (rowOf (x0 (ix1 b))) (rowOf (x1 (ix1 b))) : ℝ) : EReal)

/-- The loss: the mean distance over the samples. -/
def loss (x0 x1 : SB.Idx → BitVec 32) (cb : SCb.Idx → EReal) : EReal :=
  (∑ b : Fin 262144, dist x0 x1 cb b) * ((1 / 262144 : ℝ) : EReal)

/-- The indicator that word `w` is class `k`. -/
def hot (k : Fin 1024) (w : BitVec 32) : EReal := if BitVec.ofNat 32 k.val = w then 1 else 0

/-- The table with 24 zero rows appended. -/
def padded (cb : SCb.Idx → EReal) : SPad.Idx → EReal :=
  fun i => if h : (i 0).val < 1000 then cb (ix2 ⟨(i 0).val, h⟩ (i 1)) else 0

/-- One sample's one-hot form of the distance against a 1024-row table `P`: over the code positions, the
    absolute value of the difference of the two selected rows, each selected by a sum over the classes. -/
def rowAbs (w0 w1 : BitVec 32) (P : SPad.Idx → EReal) : EReal :=
  ∑ j : Fin 512, max (∑ k : Fin 1024, (hot k w0 - hot k w1) * P (ix2 k j))
    (-(∑ k : Fin 1024, (hot k w0 - hot k w1) * P (ix2 k j)))

/-- A tile of 2048 samples: the sum of its samples' one-hot distances. -/
def tileSum (y0 y1 : STile.Idx → BitVec 32) (P : SPad.Idx → EReal) : EReal :=
  ∑ r : Fin 2048, rowAbs (y0 (ix1 r)) (y1 (ix1 r)) P

end Cert.Hamming

end
-- ==== Proof.PreFacts.lean ====
/-
  The printed precondition, decoded. The precondition is a conjunction of four tests, each a reduction by "and" over
  a whole array: the table's entries are finite; every word of the first index vector is, read signed, at least 0 and
  below 1000; the same for the second index vector; every table entry equals the float 0.0 or the float 1.0. Where the
  conjunction is 1, each reduction is 1, so each array it ranges over is 1 at every index. Read at one index: a signed
  word between 0 and 999 has that value unsigned, and an ordered-equal comparison of extended reals that is 1 is an
  equality, against the extended reals 0 and 1 the two bit patterns denote. The finiteness test is not needed here.
-/
import proofs.«401725_j70729521431100_3_alg».proof.Pre_finite_inputs
import proofs.«401725_j70729521431100_3_alg».proof.Proof.HammingSpec
import Idealize.ShloMosaic.Lib.StableHlo.Predicate
import Idealize.ShloMosaic.Lib.ReduceAll
import Idealize.ShloMosaic.PureOps.Ideal.Laws

namespace Cert.Hamming.Pre

open Idealize.ShloMosaic Idealize.ShloMosaic.ValueIdx Cert.Hamming

/-- The scalar shape has one index. -/
private instance : Subsingleton Cert.Pre_finite_inputs.S_.Idx := ⟨fun a b => funext fun d => d.elim0⟩

/-- A 32-bit word that is, read signed, at least 0 and below 1000 is below 1000 read unsigned. -/
private theorem word_lt (w : BitVec 32) (h1 : IntOp.cmpi .sge w 0#32 = 1#1) (h2 : IntOp.cmpi .slt w 1000#32 = 1#1) :
    w.toNat < 1000 := by
  rw [IntOp.cmpi_sge] at h1
  rw [IntOp.cmpi_slt] at h2
  rw [show (0#32 : BitVec 32).toInt = 0 from by decide] at h1
  rw [show (1000#32 : BitVec 32).toInt = 1000 from by decide] at h2
  rw [BitVec.toInt_eq_toNat_cond] at h1 h2
  have := w.isLt
  split at h1 <;> omega

/-- The f32 pattern with exponent field 127 and zero fraction is the real 1. -/
private theorem one_f32 : Ideal.ofBits .f32 0x3F800000#32 = 1 := by
  rw [show (1 : EReal) = ((1 : ℝ) : EReal) by norm_cast]
  simp [Ideal.ofBits, Ideal.ieee, -EReal.coe_mul]; norm_num

/-- An ordered-equal comparison of two extended reals that is 1 is their equality. -/
private theorem oeq_eq {a b : EReal} (h : Ideal.cmp .oeq a b = 1#1) : a = b := by
  simpa only [Ideal.cmp, StableHlo.Predicate.ofBool_eq_one_iff, decide_eq_true_eq] using h

open Cert.Pre_finite_inputs in
theorem pre_facts [Cert.Pre_finite_inputs.Facts] (x0 x1 : SB.Idx → BitVec 32) (cb : SCb.Idx → EReal)
    (h : Cert.Pre_finite_inputs.fn (F := Ideal) x0 x1 cb = fun _ => 1#1) :
    (∀ b : Fin 262144, (x0 (ix1 b)).toNat < 1000) ∧ (∀ b : Fin 262144, (x1 (ix1 b)).toNat < 1000)
      ∧ (∀ i : SCb.Idx, cb i = 0 ∨ cb i = 1) := by
  have h0 := congrFun h ix0
  dsimp only [Cert.Pre_finite_inputs.fn, Cert.Pre_finite_inputs.fn_part1] at h0
  -- the four tests, each 1
  obtain ⟨h123, h4⟩ := IntOp.andi_eq_one.1 (show IntOp.andi _ _ = 1#1 from h0)
  obtain ⟨h12, h3⟩ := IntOp.andi_eq_one.1 (show IntOp.andi _ _ = 1#1 from h123)
  obtain ⟨-, h2⟩ := IntOp.andi_eq_one.1 (show IntOp.andi _ _ = 1#1 from h12)
  refine ⟨fun b => ?_, fun b => ?_, fun i => ?_⟩
  · have e := Host.reduce_andi_all _ _ _ _ _ h2 (ix1 b)
    obtain ⟨e1, e2⟩ := IntOp.andi_eq_one.1 (show IntOp.andi _ _ = 1#1 from e)
    exact word_lt _ (show IntOp.cmpi .sge (x0 (ix1 b)) 0#32 = 1#1 from e1)
      (show IntOp.cmpi .slt (x0 (ix1 b)) 1000#32 = 1#1 from e2)
  · have e := Host.reduce_andi_all _ _ _ _ _ h3 (ix1 b)
    obtain ⟨e1, e2⟩ := IntOp.andi_eq_one.1 (show IntOp.andi _ _ = 1#1 from e)
    exact word_lt _ (show IntOp.cmpi .sge (x1 (ix1 b)) 0#32 = 1#1 from e1)
      (show IntOp.cmpi .slt (x1 (ix1 b)) 1000#32 = 1#1 from e2)
  · have e := Host.reduce_andi_all _ _ _ _ _ h4 i
    rcases IntOp.ori_eq_one.1 (show IntOp.ori _ _ = 1#1 from e) with e0 | e1
    · left
      have := oeq_eq (show Ideal.cmp .oeq (cb i) (Ideal.ofBits .f32 0x00000000#32) = 1#1 from e0)
      rwa [Ideal.ofBits_zero_f32] at this
    · right
      have := oeq_eq (show Ideal.cmp .oeq (cb i) (Ideal.ofBits .f32 0x3F800000#32) = 1#1 from e1)
      rwa [one_f32] at this

end Cert.Hamming.Pre
-- ==== Proof.LibGatherScatterRows.lean ====
/-
  Row gathers and row scatter-adds read at an index.

  A `stablehlo.gather` that picks whole rows of a rank-2 or rank-3 operand by one start index per
  result row (axis 0 collapsed, the other axes offset axes, slice sizes 1 × the row), and a float
  `stablehlo.scatter` with an `add` body that accumulates update rows into the operand's rows named by
  one scatter index per update row (axis 0 inserted, the other axes window axes), at the exact instance.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

/-! ## The row gather: the operand index a result index reads -/

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Rank 2: result index `(e, c)` reads the operand at `(idx[e], c)`, the start inside the operand. -/
private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), the start inside the operand: the operand's row idx[e]. -/
theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

/-- Rank 3: result index `(e, a, b)` reads the operand at `(idx[e], a, b)`, the start inside the operand. -/
private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  show GatherDims.start _ (ix3 e a b) idx k + GatherDims.batchCoord _ (ix3 e a b) k + GatherDims.offCoord _ (ix3 e a b) k = _
  rw [GatherDims.batchCoord_eq_zero _ _ _ List.not_mem_nil, Nat.add_zero]
  match k with
  | ⟨0, _⟩ =>
    show GatherDims.start _ (ix3 e a b) idx 0 + GatherDims.offCoord _ (ix3 e a b) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1, 2], [0], [], [], [0], 1, ![1, A, B], wf⟩ :
        GatherDims ⟨3, ![N, A, B]⟩ ⟨2, ![E, 1]⟩ ⟨3, ![E, A, B]⟩) (ix3 e a b)
        ⟨List.idxOf (0 : Fin 3) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 1 = 0 := by
      unfold GatherDims.start; rw [dif_neg (by simp)]
    show GatherDims.start _ (ix3 e a b) idx 1 + GatherDims.offCoord _ (ix3 e a b) 1 = a.val
    rw [hs, Nat.zero_add]; rfl
  | ⟨2, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 2 = 0 := by
      unfold GatherDims.start; rw [dif_neg (by simp)]
    show GatherDims.start _ (ix3 e a b) idx 2 + GatherDims.offCoord _ (ix3 e a b) 2 = b.val
    rw [hs, Nat.zero_add]; rfl

/-- `x[idx]` over a rank-3 operand READ AT (e, a, b), the start inside the operand: the operand's slab idx[e]. -/
theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

/-! ## The row scatter: the target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

/-- Rank 2, row axis: the start of update `(e, c')` is the scatter index of row `e`, read signed. -/
private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 2, column axis: the window coordinate of update `(e, c')` is `c'`. -/
private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

/-- Rank 2: update `(e, c')` lands on `(n, c)` exactly when the scatter index of row `e`, read signed, is
    `n` and `c' = c`. -/
private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  constructor
  · intro h
    have h0 := h 0
    have h1 := h 1
    rw [s2_start0, w0, Nat.cast_zero, Int.add_zero] at h0
    rw [s1, s2_window1, Int.zero_add] at h1
    exact ⟨h0, Fin.ext (by exact_mod_cast h1)⟩
  · rintro ⟨h0, rfl⟩ a
    match a with
    | ⟨0, _⟩ =>
      show ScatterDims.start _ (ix2 e c') idx 0 + ((ScatterDims.window _ (ix2 e c') 0 : Nat) : Int) = _
      rw [s2_start0, w0, Nat.cast_zero, Int.add_zero]; exact h0
    | ⟨1, _⟩ =>
      show ScatterDims.start _ (ix2 e c') idx 1 + ((ScatterDims.window _ (ix2 e c') 1 : Nat) : Int) = _
      rw [s1, s2_window1, Int.zero_add]

/-- `x.at[idx].add(upd)` over a rank-2 operand READ AT (n, c), at the exact instance: the operand's element plus
    the sum of the update rows aimed at row n (a scatter index outside the operand aims at no row). -/
theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Rank 3, slab axis: the start of update `(e, a', b')` is the scatter index of slab `e`, read signed. -/
private theorem s3_start0 (wf) (idx : IVec ⟨2, ![E, 1]⟩ w) (e : Fin E) (a' : Fin A) (b' : Fin B) :
    (⟨[1, 2], [0], [0], 1, wf⟩ : ScatterDims ⟨3, ![N, A, B]⟩ ⟨2, ![E, 1]⟩ ⟨3, ![E, A, B]⟩).start (ix3 e a' b') idx 0
      = (idx (ix2 e 0)).toInt := by
  unfold ScatterDims.start
  rw [dif_pos (List.mem_cons_self)]
  congr 2
  funext k; refine Fin.ext ?_
  match k with
  | ⟨0, _⟩ => rfl
  | ⟨1, _⟩ => rfl

/-- Rank 3, second axis: the window coordinate of update `(e, a', b')` is `a'`. -/
private theorem s3_window1 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 1 = a'.val := rfl

/-- Rank 3, third axis: the window coordinate of update `(e, a', b')` is `b'`. -/
private theorem s3_window2 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 2 = b'.val := rfl

/-- Rank 3: update `(e, a', b')` lands on `(n, a, b)` exactly when the scatter index of slab `e`, read
    signed, is `n`, `a' = a` and `b' = b`. -/
private theorem s3_resultIdx?_iff (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (idx : IVec ⟨2, ![E, 1]⟩ w) (e : Fin E) (a' : Fin A) (b' : Fin B) (n : Fin N) (a : Fin A) (b : Fin B) :
    d.resultIdx? (ix3 e a' b') idx = some (ix3 n a b) ↔
      (idx (ix2 e 0)).toInt = (n.val : Int) ∧ a' = a ∧ b' = b := by
  obtain ⟨uw, iw, sd, iv, wf⟩ := d
  dsimp only at huw hiw hsd hiv
  subst huw hiw hsd hiv
  rw [resultIdx?_eq_some]
  have w0 := window_inserted (⟨[1, 2], [0], [0], 1, wf⟩ : ScatterDims ⟨3, ![N, A, B]⟩ ⟨2, ![E, 1]⟩ ⟨3, ![E, A, B]⟩)
    (ix3 e a' b') 0 List.mem_cons_self
  have s1 := start_unaddressed (⟨[1, 2], [0], [0], 1, wf⟩ : ScatterDims ⟨3, ![N, A, B]⟩ ⟨2, ![E, 1]⟩ ⟨3, ![E, A, B]⟩)
    (ix3 e a' b') idx 1 (by simp)
  have s2 := start_unaddressed (⟨[1, 2], [0], [0], 1, wf⟩ : ScatterDims ⟨3, ![N, A, B]⟩ ⟨2, ![E, 1]⟩ ⟨3, ![E, A, B]⟩)
    (ix3 e a' b') idx 2 (by simp)
  constructor
  · intro h
    have h0 := h 0
    have h1 := h 1
    have h2 := h 2
    rw [s3_start0, w0, Nat.cast_zero, Int.add_zero] at h0
    rw [s1, s3_window1, Int.zero_add] at h1
    rw [s2, s3_window2, Int.zero_add] at h2
    exact ⟨h0, Fin.ext (by exact_mod_cast h1), Fin.ext (by exact_mod_cast h2)⟩
  · rintro ⟨h0, rfl, rfl⟩ k
    match k with
    | ⟨0, _⟩ =>
      show ScatterDims.start _ (ix3 e a' b') idx 0 + ((ScatterDims.window _ (ix3 e a' b') 0 : Nat) : Int) = _
      rw [s3_start0, w0, Nat.cast_zero, Int.add_zero]; exact h0
    | ⟨1, _⟩ =>
      show ScatterDims.start _ (ix3 e a' b') idx 1 + ((ScatterDims.window _ (ix3 e a' b') 1 : Nat) : Int) = _
      rw [s1, s3_window1, Int.zero_add]
    | ⟨2, _⟩ =>
      show ScatterDims.start _ (ix3 e a' b') idx 2 + ((ScatterDims.window _ (ix3 e a' b') 2 : Nat) : Int) = _
      rw [s2, s3_window2, Int.zero_add]

/-- `x.at[idx].add(upd)` over a rank-3 operand READ AT (n, a, b), at the exact instance. -/
theorem scatterAdd_rows3_apply (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![E, 1]⟩ w) (upd : (⟨3, ![E, A, B]⟩ : Shape).Idx → EReal)
    (n : Fin N) (a : Fin A) (b : Fin B) :
    Host.scatterAdd (F := Ideal) (φ := .f32) d x idx upd (ix3 n a b)
      = x (ix3 n a b) + ∑ e : Fin E, if (idx (ix2 e 0)).toInt = (n.val : Int) then upd (ix3 e a b) else 0 := by
  unfold Host.scatterAdd
  rw [Ideal.hostScatterAdd_def]
  unfold Ideal.hostScatterAdd
  congr 1
  rw [Finset.sum_filter, sum_idx3]
  refine Finset.sum_congr rfl fun e _ => ?_
  by_cases he : (idx (ix2 e 0)).toInt = (n.val : Int)
  · rw [if_pos he, Finset.sum_eq_single a]
    · rw [Finset.sum_eq_single b]
      · rw [if_pos ((s3_resultIdx?_iff d huw hiw hsd hiv idx e a b n a b).2 ⟨he, rfl, rfl⟩)]
      · intro b' _ hb'
        rw [if_neg fun h => hb' ((s3_resultIdx?_iff d huw hiw hsd hiv idx e a b' n a b).1 h).2.2]
      · intro h; exact absurd (Finset.mem_univ _) h
    · intro a' _ ha'
      refine Finset.sum_eq_zero fun b' _ => ?_
      rw [if_neg fun h => ha' ((s3_resultIdx?_iff d huw hiw hsd hiv idx e a' b' n a b).1 h).2.1]
    · intro h; exact absurd (Finset.mem_univ _) h
  · rw [if_neg he]
    refine Finset.sum_eq_zero fun a' _ => Finset.sum_eq_zero fun b' _ => ?_
    rw [if_neg fun h => he ((s3_resultIdx?_iff d huw hiw hsd hiv idx e a' b' n a b).1 h).1]

end Idealize.ShloMosaic.RowsGS

end
-- ==== Proof.RefValue.lean ====
/-
  The reference's value. For class words below 1000 the "add 1000 if negative" step leaves each index as it is, so
  each of the two row lookups reads the table row its word names; the comparison marks the positions where the two
  rows differ; the integer count of the marks along a row is the rows' Hamming distance (at most 512, so it reads
  the same as a signed integer and as a float); the sum of the 262144 counts from zero, divided by the float 262144,
  is the sum of the distances times 1/262144: the Hamming loss.
-/
import proofs.«401725_j70729521431100_3_alg».proof.Proof.Gen.ReferenceIdeal.Run
import proofs.«401725_j70729521431100_3_alg».proof.Proof.Gen.ReferenceIdeal.Read
import proofs.«401725_j70729521431100_3_alg».proof.Proof.HammingSpec
import proofs.«401725_j70729521431100_3_alg».proof.Proof.LibGatherScatterRows
import Idealize.ShloMosaic.Lib.StableHlo.Predicate
import Idealize.ShloMosaic.PureOps.Ideal.Laws
import Idealize.ShloMosaic.Lib.ValueIdx

noncomputable section

namespace Cert.ReferenceIdeal.RefValue

open Idealize.ShloMosaic Idealize.ShloMosaic.ValueIdx Cert.Hamming
open Cert.ReferenceIdeal Cert.ReferenceIdeal.Read

/-! ## Small facts: the divisor, rank-1 sums, the index normalisation -/

/-- The divisor's word denotes the real 262144 (sign 0, exponent field 145, fraction 0: 2 ^ 18). -/
theorem ofBits_262144 : Ideal.ofBits .f32 0x48800000#32 = ((262144 : ℝ) : EReal) := by
  simp [Ideal.ofBits, Ideal.ieee, -EReal.coe_mul]; norm_num

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A class word below 1000 is not negative as a signed word, so "add 1000 if negative" leaves it. -/
private theorem norm_idx (w a : BitVec 32) (hw : w.toNat < 1000) :
    Scalar.select (IntOp.cmpi .slt w 0#32) a w = w := by
  have hne : ¬ IntOp.cmpi .slt w 0#32 = 1#1 := by
    rw [StableHlo.Predicate.slt_iff_toNat (by omega) (by decide)]
    simp
  rw [eq_zero_of_ne_one hne, select_zero]

/-- A class word below 1000 read as a signed integer is the number of the row it names. -/
private theorem toInt_rowOf (w : BitVec 32) (hw : w.toNat < 1000) : w.toInt = ((rowOf w).val : Int) := by
  rw [StableHlo.Predicate.toInt_eq_toNat_of_lt (by omega)]
  show (w.toNat : Int) = ((w.toNat % 1000 : Nat) : Int)
  rw [Nat.mod_eq_of_lt hw]

/-! ## The two normalised index vectors and the two gathers -/

/-- The first normalised index vector is the first index vector. -/
private theorem v4_apply (x : SB.Idx → BitVec 32) (b : Fin 262144) (hx : (x (ix1 b)).toNat < 1000) :
    val_main_v4 (F := Ideal) x (ix1 b) = x (ix1 b) := by
  rw [val_main_v4_apply, val_main_v1_apply, val_main_v0_apply, val_main_c_apply]
  exact norm_idx _ _ hx

/-- The second normalised index vector is the second index vector. -/
private theorem v11_apply (x : SB.Idx → BitVec 32) (b : Fin 262144) (hx : (x (ix1 b)).toNat < 1000) :
    val_main_v11 (F := Ideal) x (ix1 b) = x (ix1 b) := by
  rw [val_main_v11_apply, val_main_v8_apply, val_main_v7_apply, val_main_c_1_apply]
  exact norm_idx _ _ hx

/-- The first gather's start index of sample `b`, read signed, is the row its word names. -/
private theorem v5_start (x : SB.Idx → BitVec 32) (b : Fin 262144) (hx : (x (ix1 b)).toNat < 1000) :
    (val_main_v5 (F := Ideal) x (ix2 b (0 : Fin 1))).toInt = ((rowOf (x (ix1 b))).val : Int) := by
  have hi : idx_main_v5 (ix2 b (0 : Fin 1)) = ix1 b := by
    funext a; match a with | ⟨0, _⟩ => rfl
  rw [val_main_v5_apply, hi, v4_apply x b hx]
  exact toInt_rowOf _ hx

/-- The second gather's likewise. -/
private theorem v12_start (x : SB.Idx → BitVec 32) (b : Fin 262144) (hx : (x (ix1 b)).toNat < 1000) :
    (val_main_v12 (F := Ideal) x (ix2 b (0 : Fin 1))).toInt = ((rowOf (x (ix1 b))).val : Int) := by
  have hi : idx_main_v12 (ix2 b (0 : Fin 1)) = ix1 b := by
    funext a; match a with | ⟨0, _⟩ => rfl
  rw [val_main_v12_apply, hi, v11_apply x b hx]
  exact toInt_rowOf _ hx

/-- The first gather at (b, q): the table at (the row sample `b`'s first word names, q). -/
private theorem v6_apply (x : SB.Idx → BitVec 32) (cb : SCb.Idx → EReal) (b : Fin 262144) (q : Fin 512)
    (hx : (x (ix1 b)).toNat < 1000) :
    val_main_v6 (F := Ideal) x cb (ix2 b q) = cb (ix2 (rowOf (x (ix1 b))) q) := by
  unfold val_main_v6
  exact RowsGS.gather_rows2_apply _ rfl rfl rfl rfl rfl rfl rfl cb (val_main_v5 (F := Ideal) x) b q _ (v5_start x b hx)

/-- The second gather at (b, q): the table at (the row sample `b`'s second word names, q). -/
private theorem v13_apply (x : SB.Idx → BitVec 32) (cb : SCb.Idx → EReal) (b : Fin 262144) (q : Fin 512)
    (hx : (x (ix1 b)).toNat < 1000) :
    val_main_v13 (F := Ideal) x cb (ix2 b q) = cb (ix2 (rowOf (x (ix1 b))) q) := by
  unfold val_main_v13
  exact RowsGS.gather_rows2_apply _ rfl rfl rfl rfl rfl rfl rfl cb (val_main_v12 (F := Ideal) x) b q _ (v12_start x b hx)

/-! ## The mask, its row count, the count as a float -/

/-- The mask bit at (b, q) is set exactly when the two named rows differ at position q: on extended reals
    the "unordered or not equal" comparison is plain inequality. -/
private theorem v14_bit (x0 x1 : SB.Idx → BitVec 32) (cb : SCb.Idx → EReal) (b : Fin 262144) (q : Fin 512)
    (hx0 : (x0 (ix1 b)).toNat < 1000) (hx1 : (x1 (ix1 b)).toNat < 1000) :
    val_main_v14 (F := Ideal) x0 x1 cb (ix2 b q) = 1#1 ↔
      cb (ix2 (rowOf (x0 (ix1 b))) q) ≠ cb (ix2 (rowOf (x1 (ix1 b))) q) := by
  rw [val_main_v14_apply, Ideal.cmpf_def, v6_apply x0 cb b q hx0, v13_apply x1 cb b q hx1]
  simp only [Ideal.cmp, StableHlo.Predicate.ofBool_eq_one_iff, decide_eq_true_eq]

/-- The integer row count of sample `b` is the Hamming distance of its two rows. -/
private theorem v16_toNat (x0 x1 : SB.Idx → BitVec 32) (cb : SCb.Idx → EReal) (b : Fin 262144)
    (hx0 : (x0 (ix1 b)).toNat < 1000) (hx1 : (x1 (ix1 b)).toNat < 1000) :
    (val_main_v16 (F := Ideal) x0 x1 cb (ix1 b)).toNat = mism cb (rowOf (x0 (ix1 b))) (rowOf (x1 (ix1 b))) := by
  unfold val_main_v16 val_main_v15 val_main_c_3
  rw [StableHlo.Predicate.toNat_reduce_count_cols (by norm_num) (val_main_v14 (F := Ideal) x0 x1 cb)]
  unfold mism
  refine congrArg Finset.card (Finset.filter_congr fun q _ => ?_)
  have hq : ix2 b q = StableHlo.Predicate.ij ((ix1 b : SB.Idx) 0) q := by
    funext d; match d with | ⟨0, _⟩ => rfl | ⟨1, _⟩ => rfl
  have h := v14_bit x0 x1 cb b q hx0 hx1
  rw [hq] at h
  exact h

/-- A Hamming distance of rows of length 512 is at most 512. -/
private theorem mism_le (cb : SCb.Idx → EReal) (a b : Fin 1000) : mism cb a b ≤ 512 := by
  unfold mism
  exact (Finset.card_le_univ _).trans (by simp)

/-- The row count converted to a float is sample `b`'s distance. -/
private theorem v17_dist (x0 x1 : SB.Idx → BitVec 32) (cb : SCb.Idx → EReal) (b : Fin 262144)
    (hx0 : (x0 (ix1 b)).toNat < 1000) (hx1 : (x1 (ix1 b)).toNat < 1000) :
    val_main_v17 (F := Ideal) x0 x1 cb (ix1 b) = dist x0 x1 cb b := by
  rw [val_main_v17_apply]
  show (((val_main_v16 (F := Ideal) x0 x1 cb (ix1 b)).toInt : ℝ) : EReal) = _
  have hc := v16_toNat x0 x1 cb b hx0 hx1
  have hle := mism_le cb (rowOf (x0 (ix1 b))) (rowOf (x1 (ix1 b)))
  rw [StableHlo.Predicate.toInt_eq_toNat_of_lt (by omega), hc, Int.cast_natCast]
  rfl

/-! ## The reference's value -/

/-- The reference returns the Hamming loss: the sum of the samples' distances times 1/262144. -/
theorem ref_value [Cert.ReferenceIdeal.Facts] (x0 x1 : SB.Idx → BitVec 32) (cb : SCb.Idx → EReal)
    (h0 : ∀ b : Fin 262144, (x0 (ix1 b)).toNat < 1000) (h1 : ∀ b : Fin 262144, (x1 (ix1 b)).toNat < 1000) :
    Cert.ReferenceIdeal.Read.val_main_v19 (F := Ideal) x0 x1 cb = fun _ => loss x0 x1 cb := by
  funext i
  rw [val_main_v19_apply, val_main_v18_apply, val_main_cst_apply, val_main_cst_4_apply]
  rw [Ideal.hostDivf_def, Ideal.ofBits_def, Ideal.ofBits_def, ofBits_262144, Ideal.ofBits_zero_f32, zero_add,
    Ideal.div_coe (by norm_num)]
  have hs : ∑ j : S262144.Idx, val_main_v17 (F := Ideal) x0 x1 cb j = ∑ b : Fin 262144, dist x0 x1 cb b := by
    rw [sum_idx1]
    exact Finset.sum_congr rfl fun b _ => v17_dist x0 x1 cb b (h0 b) (h1 b)
  rw [hs]
  rfl

end Cert.ReferenceIdeal.RefValue

end
-- ==== Proof.HammingLayout.lean ====
/-
  Layout operations of a column, read at an index, and sums along one axis of a rectangle.

  A vector of length `a` viewed as an [a, 1] column holds, at (i, 0), the vector's entry i; an [a, 1] column spread
  over [a, b] holds, at (p, c), the column's entry (p, 0). A sum along the second axis of an [a, b] rectangle is, at
  row r, the sum over c of the entries (r, c); a sum along the first axis of an [a, 1] column is the sum over r of
  the entries (r, 0). The accumulator word of each sum is the zero word, the neutral element of addition.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Hamming.Layout

open Idealize.ShloMosaic Idealize.ShloMosaic.ValueIdx

variable {α : Type}

/-- A length-`a` vector viewed as an [a, 1] column reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of an [a, b] rectangle, at row r: the sum over c of the entries (r, c). -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (r : Fin a) :
    multiReduction .add [(1 : Fin 2)] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext ax
  match ax with
  | ⟨0, _⟩ => rfl
  | ⟨1, _⟩ => rfl

/-- The sum along the first axis of an [a, 1] column: the sum over r of the entries (r, 0). -/
theorem colSum_apply {a : ℕ} (src : FVec Ideal ⟨2, ![a, 1]⟩ .f32)
    (h : (⟨2, ![a, 1]⟩ : Shape).Reduces [(0 : Fin 2)] ⟨1, ![1]⟩) (hφ : FKind.Formats .f32)
    (hacc : (0x00000000#32 : BitVec 32) = FKind.add.neutral .f32 hφ) (u : Fin 1) :
    multiReduction .add [(0 : Fin 2)] ⟨1, ![1]⟩ src 0x00000000#32 h hφ hacc (ix1 u) = ∑ r : Fin a, src (ix2 r (0 : Fin 1)) := by
  refine (Ideal.multiReduction_add_single src 0x00000000#32 h hφ hacc (ix1 u)).trans ?_
  refine Finset.sum_congr rfl fun r _ => congrArg src ?_
  funext ax
  match ax with
  | ⟨0, _⟩ => rfl
  | ⟨1, _⟩ =>
    refine Fin.ext ?_
    have := u.isLt
    show u.val = 0
    omega

end Cert.Hamming.Layout

end
-- ==== Proof.HammingMatmul.lean ====
/-
  A plain matrix product read at an index.

  For an [M, K] left operand and a [K, N] right operand, contracted over the left's second and the right's first axis,
  with no batch axes, into the zero accumulator: the entry (p, q) of the product is the sum over k of
  left (p, k) · right (k, q), as extended reals.
-/
import Idealize.ShloMosaic.Lib.ValueIdx
import Idealize.ShloMosaic.PureOps.Ideal.Laws

noncomputable section

namespace Cert.Hamming.Layout

open Idealize.ShloMosaic Idealize.ShloMosaic.ValueIdx

/-- A coordinate of (p, q) at an axis number known to be 0 is p's; at 1, q's. -/
private theorem ix2_val_at {M N : ℕ} (p : Fin M) (q : Fin N) (n : ℕ) (hn : n < 2) :
    (n = 0 → ((ix2 p q : (⟨2, ![M, N]⟩ : Shape).Idx) ⟨n, hn⟩).val = p.val)
      ∧ (n = 1 → ((ix2 p q : (⟨2, ![M, N]⟩ : Shape).Idx) ⟨n, hn⟩).val = q.val) :=
  ⟨fun h => by subst h; rfl, fun h => by subst h; rfl⟩

theorem matmul2_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := by rw [d.rank_contr, hlc]; rfl
  have hs : d.contr.size ⟨0, by omega⟩ = K := by
    rw [d.size_contr 0 (by rw [hlc]; exact Nat.one_pos), List.getElem_of_eq hlc]; rfl
  rw [← Equiv.sum_comp (contrEquiv1 d K hr hs).symm]
  refine Finset.sum_congr rfl fun k _ => ?_
  have e0 : d.lhsIdx (ix2 p q) ((contrEquiv1 d K hr hs).symm k) = ix2 p k := by
    funext a
    refine Fin.ext ?_
    match a with
    | ⟨0, _⟩ =>
      have hb : (0 : Fin 2) ∉ d.lhsBatch := by rw [hlb]; exact List.not_mem_nil
      have hn : (0 : Fin 2) ∈ d.lhsNonContracting := by rw [hln]; exact List.mem_singleton.mpr rfl
      show (d.lhsIdx (ix2 p q) _ (0 : Fin 2)).val = p.val
      unfold DotDims.lhsIdx
      rw [dif_neg hb, dif_pos hn]
      simp only [Fin.val_cast]
      exact (ix2_val_at p q _ _).1 (by simp [hlb, hln])
    | ⟨1, _⟩ =>
      exact (d.lhsIdx_val_of_single hlc _ _).trans (contrEquiv1_symm_val d K hr hs k)
  have e1 : d.rhsIdx (ix2 p q) ((contrEquiv1 d K hr hs).symm k) = ix2 k q := by
    funext a
    refine Fin.ext ?_
    match a with
    | ⟨0, _⟩ =>
      exact (d.rhsIdx_val_of_single hrc _ _).trans (contrEquiv1_symm_val d K hr hs k)
    | ⟨1, _⟩ =>
      have hb : (1 : Fin 2) ∉ d.rhsBatch := by rw [hrb]; exact List.not_mem_nil
      have hn : (1 : Fin 2) ∈ d.rhsNonContracting := by rw [hrn]; exact List.mem_singleton.mpr rfl
      show (d.rhsIdx (ix2 p q) _ (1 : Fin 2)).val = q.val
      unfold DotDims.rhsIdx
      rw [dif_neg hb, dif_pos hn]
      simp only [Fin.val_cast]
      exact (ix2_val_at p q _ _).2 (by simp [hlb, hln, hrn])
  rw [e0, e1]

end Cert.Hamming.Layout

end
-- ==== Proof.KernelPay.lean ====
/-
  The kernel body's arithmetic, read as numbers.

  At one grid point the body holds a tile of 2048 class words from each index vector (`v3`, `v4`) and the whole
  padded table (`v21`, 1024 rows of 512 entries). It builds, for each vector, the 2048 × 1024 matrix whose entry
  (r, k) is 1 when word r is class k and 0 otherwise, subtracts the two, multiplies the difference into the table,
  takes absolute values, and sums everything: over the 512 code positions, then over the 2048 samples. That total is
  added to the running value `v29` of the one-entry accumulator. Read as extended reals, the new accumulator entry is
  the old entry plus the tile's sum `tileSum v3 v4 v21`.

  The accumulator's reset value is the zero word, and the output block is the accumulator's one entry spread over
  the block.
-/
import proofs.«401725_j70729521431100_3_alg».proof.Proof.Gen.KernelIdeal.Skeleton
import proofs.«401725_j70729521431100_3_alg».proof.Proof.HammingSpec
import proofs.«401725_j70729521431100_3_alg».proof.Proof.HammingLayout
import proofs.«401725_j70729521431100_3_alg».proof.Proof.HammingMatmul
import Idealize.ShloMosaic.Lib.Pipeline.Value
import Idealize.ShloMosaic.Lib.ValueLayout
import Idealize.ShloMosaic.Lib.StableHlo.Predicate

noncomputable section

namespace Cert.KernelIdeal.Pay

open Cert.KernelIdeal Cert.KernelIdeal.Gen Cert.Hamming Cert.Hamming.Layout
open Idealize.ShloMosaic Idealize.ShloMosaic.ValueIdx

/-- A one-bit word widened to 32 bits and read as a signed integer, then as a real: 1 for the set bit, 0 otherwise. -/
theorem bit_real (b : BitVec 1) :
    ((((b.setWidth 32).toInt : ℤ) : ℝ) : EReal) = if b = 1#1 then 1 else 0 := by
  by_cases h : b = 1#1
  · subst h
    rw [if_pos rfl, show ((1#1 : BitVec 1).setWidth 32).toInt = 1 from by decide]
    norm_num
  · have h0 : b = 0#1 := eq_zero_of_ne_one h
    subst h0
    rw [if_neg (by decide), show ((0#1 : BitVec 1).setWidth 32).toInt = 0 from by decide]
    norm_num

/-- The class-indicator matrix the body builds from a tile of words: the class numbers 0 … 1023 along a row compared
    with the tile's words down a column, the comparison bit widened and converted to a float. -/
abbrev indicator (v : IVec S2048 32) : FVec Ideal S2048x1024 .bf16 :=
  truncf .bf16 (sitofp .f32 (extui 32 (cmpi .eq
    (broadcastTo S2048x1024 (iota .tc S1x1024 32 [1] iota_S1x1024_d1_w32) broadcasts_S1x1024_S2048x1024)
    (broadcastTo S2048x1024 (shapeCast S2048x1 v shapeCasts_S2048_S2048x1) broadcasts_S2048x1_S2048x1024))
    natLt_1_32) : FVec Ideal S2048x1024 .f32) bitsLt_bf16_f32

/-- Its entry (r, k) is 1 when word r is class k, else 0. -/
theorem onehot_apply (v : IVec S2048 32) (r : Fin 2048) (k : Fin 1024) :
    indicator v (ix2 r k) = hot k (v (ix1 r)) := by
  have e1 : broadcastTo S2048x1024 (iota .tc S1x1024 32 [1] iota_S1x1024_d1_w32) broadcasts_S1x1024_S2048x1024 (ix2 r k)
      = BitVec.ofNat 32 k.val :=
    (broadcastTo_1b_ab_apply _ _ r k).trans (iota_single_apply .tc S1x1024 32 1 _ (ix2 (0 : Fin 1) k))
  have e2 : broadcastTo S2048x1024 (shapeCast S2048x1 v shapeCasts_S2048_S2048x1) broadcasts_S2048x1_S2048x1024 (ix2 r k)
      = v (ix1 r) :=
    (broadcastTo_a1_ab_apply _ _ r k).trans (shapeCast_a_a1_apply v _ r 0)
  unfold indicator truncf sitofp extui cmpi
  dsimp only
  rw [e1, e2]
  show ((((IntOp.cmpi .eq (BitVec.ofNat 32 k.val) (v (ix1 r))).setWidth 32).toInt : ℤ) : ℝ) = hot k (v (ix1 r))
  rw [bit_real]
  unfold hot
  by_cases h : BitVec.ofNat 32 k.val = v (ix1 r)
  · rw [if_pos h, if_pos (StableHlo.Predicate.cmpi_eq_iff.mpr h)]
  · rw [if_neg h, if_neg (fun h' => h (StableHlo.Predicate.cmpi_eq_iff.mp h'))]

/-- The accumulator's new entry: the old entry plus the tile's sum. -/
theorem pay2_apply (v3 v4 : Vec Ideal S2048 .i32) (v21 : Vec Ideal S1024x512 .bf16) (v29 : Vec Ideal S1x1 .f32) :
    k0_pay2 (F := Ideal) v3 v4 v21 v29 (ix2 (0 : Fin 1) (0 : Fin 1))
      = v29 (ix2 (0 : Fin 1) (0 : Fin 1)) + tileSum v3 v4 v21 := by
  unfold k0_pay2
  dsimp only
  simp only [shapeCast_self]
  refine (addf_apply _ _ _).trans ?_
  refine congrArg (v29 (ix2 (0 : Fin 1) (0 : Fin 1)) + ·) ?_
  refine (shapeCast_a_1a_apply _ _ (0 : Fin 1) (0 : Fin 1)).trans ?_
  refine (colSum_apply _ _ _ _ (0 : Fin 1)).trans ?_
  unfold tileSum
  refine Finset.sum_congr rfl fun r _ => ?_
  refine (shapeCast_a_a1_apply _ _ r (0 : Fin 1)).trans ?_
  refine (rowSum_apply _ _ _ _ r).trans ?_
  unfold rowAbs
  refine Finset.sum_congr rfl fun j _ => ?_
  have e : ∀ src : FVec Ideal S2048x512 .f32, absf src (ix2 r j) = max (src (ix2 r j)) (-(src (ix2 r j))) :=
    fun src => Ideal.absf_def _
  refine (e _).trans ?_
  have em := matmul2_zero_apply (φ₁ := .bf16) (φ₂ := .bf16) dot_S2048x1024_S1024x512_S2048x512_1_0_0_1_n_n
    rfl rfl rfl rfl rfl rfl none (subf (indicator v3) (indicator v4)) (v21 : FVec Ideal S1024x512 .bf16) r j
  have es : (∑ k : Fin 1024, (subf (indicator v3) (indicator v4)) (ix2 r k) * (v21 : FVec Ideal S1024x512 .bf16) (ix2 k j))
      = ∑ k : Fin 1024, (hot k (v3 (ix1 r)) - hot k (v4 (ix1 r))) * v21 (ix2 k j) :=
    Finset.sum_congr rfl fun k _ => by
      rw [subf_apply, onehot_apply v3 r k, onehot_apply v4 r k]
  have ev := em.trans es
  exact congrArg (fun x : EReal => max x (-x)) ev

/-- The accumulator's reset value is zero. -/
theorem pay1_apply : (k0_pay1 (F := Ideal)) (ix2 (0 : Fin 1) (0 : Fin 1)) = 0 := by
  unfold k0_pay1
  rw [shapeCast_self]
  exact Ideal.ofBits_zero_f32

/-- The output block: the accumulator's one entry at every position. -/
theorem pay3_apply (v37 : Vec Ideal S1x1 .f32) (p : Fin 8) (q : Fin 128) :
    k0_pay3 (F := Ideal) v37 (ix2 p q) = v37 (ix2 (0 : Fin 1) (0 : Fin 1)) := by
  unfold k0_pay3
  rw [shapeCast_self]
  refine broadcastTo_apply _ _ _ _ fun ax => ?_
  match ax with
  | ⟨0, _⟩ => rfl
  | ⟨1, _⟩ => rfl

end Cert.KernelIdeal.Pay

end
-- ==== Proof.KernelCases.lean ====
/-
  What each control case of the kernel body leaves behind, as values.

  The body has three cases by grid point. At the first point of a core's share it resets the one-entry accumulator to
  zero and then adds the tile's total; at an inner point it adds the tile's total to what the point before left; at
  the last point of a core's share it does the same and then writes the accumulator's entry over the whole output
  block. In each case the accumulator ends at the body's accumulator payload of the point's input blocks and the
  value it started from (the reset value in the first case), and in the last case the output block ends at the
  broadcast payload of that new accumulator value.
-/
import proofs.«401725_j70729521431100_3_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen
open Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- An inner point: the accumulator ends at the payload of the blocks and the carried value. -/
theorem sout_B (c : Dev nD) (i : grid0.Coords) (arg2 : Memref sig .tc .vmem S2048 .i32) (harg2 : arg2.IsWhole) (arg3 : Memref sig .tc .vmem S2048 .i32) (harg3 : arg3.IsWhole) (arg4 : Memref sig .tc .vmem S1024x512 .bf16) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048 .i32) (x1 : Vec F S2048 .i32) (x2 : Vec F S1024x512 .bf16) (xs0 : Vec F S1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread,
    View.ld_unit_zero (S := S2048) hz1, View.ld_unit_zero (S := S1024x512) hz2, View.ld_unit_zero (S := S1x1) hz2]

/-- The last point of a core's share: the accumulator likewise. -/
theorem sout_C (c : Dev nD) (i : grid0.Coords) (arg2 : Memref sig .tc .vmem S2048 .i32) (harg2 : arg2.IsWhole) (arg3 : Memref sig .tc .vmem S2048 .i32) (harg3 : arg3.IsWhole) (arg4 : Memref sig .tc .vmem S1024x512 .bf16) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048 .i32) (x1 : Vec F S2048 .i32) (x2 : Vec F S1024x512 .bf16) (xs0 : Vec F S1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S2048) hz1, View.ld_unit_zero (S := S1024x512) hz2, View.ld_unit_zero (S := S1x1) hz2]

/-- The last point of a core's share: the output block is the new accumulator value spread over it. -/
theorem out_C (c : Dev nD) (i : grid0.Coords) (arg2 : Memref sig .tc .vmem S2048 .i32) (harg2 : arg2.IsWhole) (arg3 : Memref sig .tc .vmem S2048 .i32) (harg3 : arg3.IsWhole) (arg4 : Memref sig .tc .vmem S1024x512 .bf16) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048 .i32) (x1 : Vec F S2048 .i32) (x2 : Vec F S1024x512 .bf16) (xs0 : Vec F S1x1 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S2048) hz1, View.ld_unit_zero (S := S1024x512) hz2, View.ld_unit_zero (S := S1x1) hz2,
    View.readCov_unit_zero (S := S1x1) _ hz2]

/-- The first point of a core's share: the accumulator ends at the payload of the blocks and the reset value. -/
theorem sout_A (c : Dev nD) (i : grid0.Coords) (arg2 : Memref sig .tc .vmem S2048 .i32) (harg2 : arg2.IsWhole) (arg3 : Memref sig .tc .vmem S2048 .i32) (harg3 : arg3.IsWhole) (arg4 : Memref sig .tc .vmem S1024x512 .bf16) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048 .i32) (x1 : Vec F S2048 .i32) (x2 : Vec F S1024x512 .bf16) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread,
    View.ld_unit_zero (S := S2048) hz1, View.ld_unit_zero (S := S1024x512) hz2, View.ld_unit_zero (S := S1x1) hz2]

end Cert.KernelIdeal.Cases

end
-- ==== Proof.KernelValue.lean ====
/-
  The kernel's accumulator over the grid, and what the kernel returns.

  The grid has 128 points, 64 for each of two cores' shares; point t holds samples 2048·t … 2048·t + 2047. Write
  T(t) for the tile total of point t (the one-hot form of the sum of its samples' distances). The one-entry
  accumulator is reset at the first point of a share and grows by T(t) at every point, so after point n it holds the
  sum of T over the points of n's share up to n. At the last point of each share the accumulator's entry is written
  over that share's [8, 128] block of the [16, 128] output: rows 0–7 hold the first share's total, rows 8–15 the
  second's. After the region the program adds entries (0, 0) and (8, 0) and multiplies by the word of 2⁻¹⁸.
-/
import proofs.«401725_j70729521431100_3_alg».proof.Proof.Gen.KernelIdeal.Frame
import proofs.«401725_j70729521431100_3_alg».proof.Proof.HammingSpec
import proofs.«401725_j70729521431100_3_alg».proof.Proof.KernelPay
import proofs.«401725_j70729521431100_3_alg».proof.Proof.KernelCases
import Idealize.ShloMosaic.Lib.Pipeline.Value
import Idealize.ShloMosaic.Lib.StableHlo.Run
import Idealize.ShloMosaic.Lib.Tactic

noncomputable section

namespace Cert.KernelIdeal.Acc

open Cert.KernelIdeal Cert.KernelIdeal.Gen Cert.Hamming
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three input blocks of point t: a tile of each index vector, and the whole padded table. -/
abbrev blk0 (c : Dev nD) (t : Fin cfg0.N) : Vec Ideal S2048 .i32 := iblk m c 0 t
abbrev blk1 (c : Dev nD) (t : Fin cfg0.N) : Vec Ideal S2048 .i32 := iblk m c 1 t
abbrev blk2 (c : Dev nD) (t : Fin cfg0.N) : Vec Ideal S1024x512 .bf16 := iblk m c 2 t

/-- The tile total of point t. -/
def tile (c : Dev nD) (t : Fin cfg0.N) : EReal := tileSum (blk0 m c t) (blk1 m c t) (blk2 m c t)

/-- The same by the point's number (zero past the grid). -/
def tileN (c : Dev nD) (p : ℕ) : EReal := if h : p < cfg0.N then tile m c ⟨p, h⟩ else 0

theorem tileN_of_lt (c : Dev nD) (p : ℕ) (h : p < cfg0.N) : tileN m c p = tile m c ⟨p, h⟩ := dif_pos h

/-- The accumulator's entry after point n. -/
def acc (c : Dev nD) (n : ℕ) (hn : n < cfg0.N) : EReal :=
  ((outsAt0 m c n hn).2 : Vec Ideal S1x1 .f32) (ix2 (0 : Fin 1) (0 : Fin 1))

/-- At the first point of a share the accumulator ends at that point's tile total. -/
theorem acc_first (c : Dev nD) (t : Fin cfg0.N) (h0 : t.val % 64 = 0) (h1 : ¬t.val % 64 = 63) :
    acc m c t.val t.isLt = tile m c t := by
  unfold acc
  rw [outsAt0_A m c t h0 h1]
  dsimp only
  refine (congrFun (Cases.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)) (ix2 (0 : Fin 1) (0 : Fin 1))).trans ?_
  refine (Pay.pay2_apply (blk0 m c t) (blk1 m c t) (blk2 m c t) (k0_pay1 (F := Ideal))).trans ?_
  rw [Pay.pay1_apply, zero_add]
  rfl

/-- At any other point it grows by that point's tile total. -/
theorem acc_next (c : Dev nD) (t : Fin cfg0.N) (h0 : ¬t.val % 64 = 0) :
    acc m c t.val t.isLt = acc m c (t.val - 1) (Nat.lt_of_le_of_lt (Nat.sub_le _ _) t.isLt) + tile m c t := by
  unfold acc
  by_cases h1 : t.val % 64 = 63
  · rw [outsAt0_C m c t h0 h1]
    dsimp only
    refine (congrFun (Cases.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2)
      (ix2 (0 : Fin 1) (0 : Fin 1))).trans ?_
    exact Pay.pay2_apply (blk0 m c t) (blk1 m c t) (blk2 m c t) _
  · rw [outsAt0_B m c t h0 h1]
    dsimp only
    refine (congrFun (Cases.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2)
      (ix2 (0 : Fin 1) (0 : Fin 1))).trans ?_
    exact Pay.pay2_apply (blk0 m c t) (blk1 m c t) (blk2 m c t) _

/-- At the last point of a share the output block holds the accumulator's entry at every position. -/
theorem out_last (c : Dev nD) (t : Fin cfg0.N) (h1 : t.val % 64 = 63) (p : Fin 8) (q : Fin 128) :
    ((outsAt0 m c t.val t.isLt).1 : Vec Ideal S8x128 .f32) (ix2 p q) = acc m c t.val t.isLt := by
  have h0 : ¬t.val % 64 = 0 := by omega
  unfold acc
  rw [outsAt0_C m c t h0 h1]
  dsimp only
  refine (congrFun (Cases.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2)
    (ix2 p q)).trans ?_
  refine (Pay.pay3_apply _ p q).trans ?_
  exact (congrFun (Cases.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2)
    (ix2 (0 : Fin 1) (0 : Fin 1))).symm

/-- THE CLOSED FORM: after point n the accumulator holds the sum of the tile totals of n's share up to n. -/
theorem acc_eq (c : Dev nD) : ∀ (n : ℕ) (hn : n < cfg0.N),
    acc m c n hn = ∑ s ∈ Finset.range (n % 64 + 1), tileN m c (64 * (n / 64) + s)
  | 0, hn => by
    have hf : acc m c 0 hn = tile m c ⟨0, hn⟩ :=
      acc_first m c ⟨0, hn⟩ (show (0 : ℕ) % 64 = 0 from rfl) (show ¬(0 : ℕ) % 64 = 63 from by decide)
    rw [hf]
    show tile m c ⟨0, hn⟩ = ∑ s ∈ Finset.range 1, tileN m c (64 * (0 / 64) + s)
    rw [Finset.sum_range_one]
    exact (tileN_of_lt m c 0 hn).symm
  | n + 1, hn => by
    by_cases h0 : (n + 1) % 64 = 0
    · have hf : acc m c (n + 1) hn = tile m c ⟨n + 1, hn⟩ :=
        acc_first m c ⟨n + 1, hn⟩ h0 (show ¬(n + 1) % 64 = 63 from by omega)
      have e : 64 * ((n + 1) / 64) + 0 = n + 1 := by omega
      rw [hf, h0]
      show tile m c ⟨n + 1, hn⟩ = ∑ s ∈ Finset.range 1, tileN m c (64 * ((n + 1) / 64) + s)
      rw [Finset.sum_range_one, e]
      exact (tileN_of_lt m c (n + 1) hn).symm
    · have hstep : acc m c (n + 1) hn = acc m c n (Nat.lt_of_succ_lt hn) + tile m c ⟨n + 1, hn⟩ :=
        acc_next m c ⟨n + 1, hn⟩ h0
      rw [hstep, acc_eq c n (Nat.lt_of_succ_lt hn)]
      have hd : (n + 1) / 64 = n / 64 := by omega
      have hm : (n + 1) % 64 = n % 64 + 1 := by omega
      have e : 64 * (n / 64) + (n % 64 + 1) = n + 1 := by omega
      rw [hd, hm, Finset.sum_range_succ _ (n % 64 + 1), e]
      exact congrArg (_ + ·) (tileN_of_lt m c (n + 1) hn).symm

/-! ## The output array after the run -/

theorem N128 : cfg0.N = 128 := N_0

/-- The two shares' totals: the accumulator after points 63 and 127. -/
def total0 (c : Dev nD) : EReal := acc m c 63 (by rw [N128]; decide)
def total1 (c : Dev nD) : EReal := acc m c 127 (by rw [N128]; decide)

/-- The output array: the first share's total in rows 0–7, the second's in rows 8–15. -/
def outArr (c : Dev nD) : S16x128.Idx → Elt Ideal .f32 := fun i => if (i 0).val < 8 then total0 m c else total1 m c

/-- The output window's block index at point t: the share's number on the rows, 0 on the columns. -/
theorem idx_out : ∀ t : Fin cfg0.N, win0_3.index t (0 : Fin 2) = t.val / 64 ∧ win0_3.index t (1 : Fin 2) = 0 :=
  (by decide +kernel : ∀ t : Fin grid0.N, win0_3.index t (0 : Fin 2) = t.val / 64 ∧ win0_3.index t (1 : Fin 2) = 0)

/-- What a flushing point writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h1 : t.val % 64 = 63 := (flush0_3 t).mp hf
  have hN := N128
  obtain ⟨e0, e1⟩ := idx_out t
  show (cfg0.win 3).cut (grid0.coords t) ((dats m 0 c).after 3 t) = _
  rw [after0_3]
  funext j
  obtain ⟨p, q, rfl⟩ : ∃ (p : Fin 8) (q : Fin 128), j = ix2 p q := ⟨j 0, j 1, eq_ix2 j⟩
  show ((outsAt0 m c t.val t.isLt).1 : Vec Ideal S8x128 .f32) (ix2 p q) = outArr m c (((cfg0.win 3).blk t).view.emb (ix2 p q))
  rw [out_last m c t h1 p q]
  unfold outArr
  have hrow : ((((cfg0.win 3).blk t).view.emb (ix2 p q)) 0).val = t.val / 64 * 8 + p.val := by
    show win0_3.index t (0 : Fin 2) * 8 + 1 * p.val = _
    rw [e0]; omega
  rw [hrow]
  have hp := p.isLt
  have ht : t.val = 63 ∨ t.val = 127 := by have := t.isLt; omega
  rcases ht with ht | ht
  · obtain rfl : t = ⟨63, by rw [N128]; decide⟩ := Fin.ext ht
    rw [if_pos (by show 63 / 64 * 8 + p.val < 8; omega)]
    rfl
  · obtain rfl : t = ⟨127, by rw [N128]; decide⟩ := Fin.ext ht
    rw [if_neg (by show ¬(127 / 64 * 8 + p.val < 8); omega)]
    rfl

/-- An index of the array is in point t's block iff each coordinate is in the block's range on its axis. -/
theorem mem_blk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v2).slice (win0_3.rect t)).set ↔ _
  rw [View.set_slice_whole, Rect.mem_set_unit]
  exact Iff.rfl

/-- The two flushing points' blocks cover the array, so it ends holding `outArr`. -/
theorem final (c : Dev nD) : (dats m 0 c).arrAt 3 cfg0.N = outArr m c :=
  (dats m 0 c).arrAt_eq_of_cover 3 (outArr m c) (flushed_eq m c) fun i => by
    have hi0 : (i 0).val < 16 := (i 0).isLt
    have hi1 : (i 1).val < 128 := (i 1).isLt
    have hN := N128
    by_cases h : (i 0).val < 8
    · refine ⟨⟨63, by rw [N128]; decide⟩, (flush0_3 _).mpr rfl, ?_⟩
      obtain ⟨e0, e1⟩ := idx_out ⟨63, by rw [N128]; decide⟩
      rw [mem_blk]
      intro a
      match a with
      | ⟨0, _⟩ => show win0_3.index _ (0 : Fin 2) * 8 ≤ (i 0).val ∧ (i 0).val < win0_3.index _ (0 : Fin 2) * 8 + 8; rw [e0]; show 63 / 64 * 8 ≤ (i 0).val ∧ (i 0).val < 63 / 64 * 8 + 8; omega
      | ⟨1, _⟩ => show win0_3.index _ (1 : Fin 2) * 128 ≤ (i 1).val ∧ (i 1).val < win0_3.index _ (1 : Fin 2) * 128 + 128; rw [e1]; omega
    · refine ⟨⟨127, by rw [N128]; decide⟩, (flush0_3 _).mpr rfl, ?_⟩
      obtain ⟨e0, e1⟩ := idx_out ⟨127, by rw [N128]; decide⟩
      rw [mem_blk]
      intro a
      match a with
      | ⟨0, _⟩ => show win0_3.index _ (0 : Fin 2) * 8 ≤ (i 0).val ∧ (i 0).val < win0_3.index _ (0 : Fin 2) * 8 + 8; rw [e0]; show 127 / 64 * 8 ≤ (i 0).val ∧ (i 0).val < 127 / 64 * 8 + 8; omega
      | ⟨1, _⟩ => show win0_3.index _ (1 : Fin 2) * 128 ≤ (i 1).val ∧ (i 1).val < win0_3.index _ (1 : Fin 2) * 128 + 128; rw [e1]; omega

/-! ## After the region -/

/-- The scale word is 2⁻¹⁸ = 1/262144 (sign 0, exponent field 109, fraction 0). -/
theorem ofBits_scale : Ideal.ofBits .f32 0x36800000#32 = ((1 / 262144 : ℝ) : EReal) := by
  simp [Ideal.ofBits, Ideal.ieee, -EReal.coe_mul]; norm_num

/-- Entry (off, 0) of a [16, 128] array, picked by a 1 × 1 slice read as a scalar. -/
theorem pick (off0 : ℕ) (h : S16x128.Slices ![off0, 0] S1x1) (hlt : off0 < 16) (x : S16x128.Idx → Elt Ideal .f32) (i : S_.Idx) :
    shapeCast S_ (extractStridedSlice S1x1 ![off0, 0] x h) shapeCasts_S1x1_S_ i = x (ix2 (⟨off0, hlt⟩ : Fin 16) (0 : Fin 128)) := by
  refine (shapeCast_apply _ shapeCasts_S1x1_S_ i (ix2 (0 : Fin 1) (0 : Fin 1)) ?_).trans ?_
  · rw [Shape.rowMajor_val_two]
    have h1 : (S_.rowMajor i).val < S_.numel := (S_.rowMajor i).isLt
    have h2 : S_.numel = 1 := rfl
    show 0 * 1 + 0 = _
    omega
  · refine extractStridedSlice_apply _ x h _ (ix2 (⟨off0, hlt⟩ : Fin 16) (0 : Fin 128)) fun a => ?_
    match a with
    | ⟨0, _⟩ => rfl
    | ⟨1, _⟩ => rfl

/-- What the program returns: the two shares' totals added, times 1/262144. -/
theorem tail_eq (c : Dev nD) :
    Pipeline.afterTail₀ cfgs (dats m) 0 (V0 m) [hostOps1] c main_v8
      = fun _ => (total0 m c + total1 m c) * ((1 / 262144 : ℝ) : EReal) := by
  unfold Pipeline.afterTail₀
  show StableHlo.after hostOps1 _ (Proc.devRef .tc main_v8) = _
  after_results
  have hv2 : Pipeline.withArrays (cfgs 0).spec c (V0 m c) (fun w => (dats m 0 c).arrAt w (cfgs 0).N) (Proc.tc.devRef main_v2)
      = outArr m c :=
    (Pipeline.withArrays_arr spec0 launch0.win.arr_inj c _ _ 3).trans (final m c)
  rw [hv2]
  funext i
  show (shapeCast S_ (extractStridedSlice S1x1 ![0, 0] (outArr m c) slices_S16x128_S1x1_0_0) shapeCasts_S1x1_S_ i
      + shapeCast S_ (extractStridedSlice S1x1 ![8, 0] (outArr m c) slices_S16x128_S1x1_8_0) shapeCasts_S1x1_S_ i)
      * Ideal.ofBits .f32 0x36800000#32 = _
  rw [pick 0 _ (by decide), pick 8 _ (by decide), ofBits_scale]
  unfold outArr
  rw [if_pos (show ((ix2 (⟨0, by decide⟩ : Fin 16) (0 : Fin 128) : S16x128.Idx) 0).val < 8 from by decide),
    if_neg (show ¬((ix2 (⟨8, by decide⟩ : Fin 16) (0 : Fin 128) : S16x128.Idx) 0).val < 8 from by decide)]

/-- The kernel's run, read: the result at the scaled sum of the two totals, the arguments unchanged. -/
theorem run : θ_run defs (onTc (τ := τ) (main (F := Ideal))) ⟨m, fun _ => 0, ρ⟩ fun r => ∀ c : Dev nD,
      r.2.mem ((c.tc : Thread nD τ).loc main_v8) = (fun _ => (total0 m c + total1 m c) * ((1 / 262144 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Acc

end
-- ==== Proof.HammingLaws.lean ====
/-
  The one-hot row identity. For a class word w below 1000 the indicator "w is class k", over the 1024 classes, is 1 at
  the one class whose number is w and 0 elsewhere, so a sum over the classes of the indicator times a row of the padded
  table selects the row of w; that row lies above the 24 appended zero rows, so it is the table's own row of w. The
  table's entries are the extended reals 0 or 1, hence real numbers, and sums, differences and products of reals read
  in the extended reals are the readings of the real ones. So at each code position the selected sum is the difference
  d of two entries, each 0 or 1, and max d (−d) = |d| is 1 where they differ and 0 where they agree; the sum over the
  code positions of that indicator is the number of positions where the two rows differ.
-/
import proofs.«401725_j70729521431100_3_alg».proof.Proof.HammingSpec
import Mathlib.Algebra.BigOperators.Group.Finset.Basic
import Mathlib.Algebra.BigOperators.Ring.Finset
import Mathlib.Data.Fintype.BigOperators
import Mathlib.Data.EReal.Operations

open scoped BigOperators

namespace Cert.Hamming

open Idealize.ShloMosaic Idealize.ShloMosaic.ValueIdx

/-- A finite sum of reals, read in the extended reals, is the sum of the readings. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The class indicator as a real: 1 at the class whose number is the word's value, 0 elsewhere. -/
private theorem hot_eq (k : Fin 1024) (w : BitVec 32) :
    hot k w = ((if k.val = w.toNat then (1 : ℝ) else 0 : ℝ) : EReal) := by
  unfold hot
  have hk := k.isLt
  have hiff : BitVec.ofNat 32 k.val = w ↔ k.val = w.toNat := by
    constructor
    · intro h; rw [← h, BitVec.toNat_ofNat]; omega
    · intro h; apply BitVec.eq_of_toNat_eq; rw [BitVec.toNat_ofNat, ← h]; omega
  by_cases hc : k.val = w.toNat
  · rw [if_pos (hiff.2 hc), if_pos hc]; rfl
  · rw [if_neg (mt hiff.1 hc), if_neg hc]; rfl

/-- A sum over the classes against the indicator of a word selects the word's class. -/
private theorem sum_hot (w : BitVec 32) (hw : w.toNat < 1024) (p : Fin 1024 → ℝ) :
    ∑ k : Fin 1024, (if k.val = w.toNat then (1 : ℝ) else 0) * p k = p ⟨w.toNat, hw⟩ := by
  rw [Finset.sum_eq_single (⟨w.toNat, hw⟩ : Fin 1024)]
  · rw [if_pos rfl, one_mul]
  · intro k _ hk
    rw [if_neg (fun h => hk (Fin.ext h)), zero_mul]
  · intro h; exact absurd (Finset.mem_univ _) h

/-- An extended real that is 0 or 1 is the reading of its real part. -/
private theorem coe_toReal_of_bit {x : EReal} (h : x = 0 ∨ x = 1) : ((x.toReal : ℝ) : EReal) = x := by
  rcases h with rfl | rfl <;> simp

/-- The padded table's real parts: the table's below row 1000, zero in the appended rows. -/
private noncomputable def pr (cb : SCb.Idx → EReal) : SPad.Idx → ℝ :=
  fun i => if h : (i 0).val < 1000 then (cb (ix2 ⟨(i 0).val, h⟩ (i 1))).toReal else 0

private theorem padded_eq (cb : SCb.Idx → EReal) (hb : ∀ i : SCb.Idx, cb i = 0 ∨ cb i = 1) (i : SPad.Idx) :
    padded cb i = ((pr cb i : ℝ) : EReal) := by
  unfold padded pr
  split
  · rw [coe_toReal_of_bit (hb _)]
  · rfl

/-- The padded table at the row of a word below 1000 is the table at the row the word names. -/
private theorem pr_row (cb : SCb.Idx → EReal) (w : BitVec 32) (hw : w.toNat < 1000) (hw' : w.toNat < 1024) (j : Fin 512) :
    pr cb (ix2 (⟨w.toNat, hw'⟩ : Fin 1024) j) = (cb (ix2 (rowOf w) j)).toReal := by
  have hr : (⟨w.toNat, hw⟩ : Fin 1000) = rowOf w := Fin.ext (Nat.mod_eq_of_lt hw).symm
  unfold pr
  rw [dif_pos (show ((ix2 (⟨w.toNat, hw'⟩ : Fin 1024) j) 0).val < 1000 from hw)]
  exact congrArg (fun r => (cb (ix2 r j)).toReal) hr

/-- At one code position: the sum over the classes is the difference of the two named rows' entries. -/
private theorem inner_eq (w0 w1 : BitVec 32) (cb : SCb.Idx → EReal) (h0 : w0.toNat < 1000) (h1 : w1.toNat < 1000)
    (hb : ∀ i : SCb.Idx, cb i = 0 ∨ cb i = 1) (j : Fin 512) :
    ∑ k : Fin 1024, (hot k w0 - hot k w1) * padded cb (ix2 k j)
      = (((cb (ix2 (rowOf w0) j)).toReal - (cb (ix2 (rowOf w1) j)).toReal : ℝ) : EReal) := by
  have hterm : ∀ k : Fin 1024, (hot k w0 - hot k w1) * padded cb (ix2 k j) =
      (((if k.val = w0.toNat then (1 : ℝ) else 0) * pr cb (ix2 k j)
        - (if k.val = w1.toNat then (1 : ℝ) else 0) * pr cb (ix2 k j) : ℝ) : EReal) := by
    intro k
    rw [hot_eq, hot_eq, padded_eq cb hb, ← EReal.coe_sub, ← EReal.coe_mul, sub_mul]
  have e0 := sum_hot w0 (by omega) (fun k => pr cb (ix2 k j))
  have e1 := sum_hot w1 (by omega) (fun k => pr cb (ix2 k j))
  beta_reduce at e0 e1
  rw [Finset.sum_congr rfl (fun k _ => hterm k), coe_sum, Finset.sum_sub_distrib, e0, e1,
    pr_row cb w0 h0, pr_row cb w1 h1]

/-- For two entries that are each 0 or 1, the absolute value of their difference is 1 where they differ, else 0. -/
private theorem abs_bit {x y : EReal} (hx : x = 0 ∨ x = 1) (hy : y = 0 ∨ y = 1) :
    max ((x.toReal - y.toReal : ℝ) : EReal) (-((x.toReal - y.toReal : ℝ) : EReal))
      = ((if x ≠ y then (1 : ℝ) else 0 : ℝ) : EReal) := by
  rw [← EReal.coe_neg, ← EReal.coe_strictMono.monotone.map_max, EReal.coe_eq_coe_iff, ← abs_eq_max_neg]
  rcases hx with rfl | rfl <;> rcases hy with rfl | rfl <;> simp

theorem rowAbs_eq (w0 w1 : BitVec 32) (cb : SCb.Idx → EReal) (h0 : w0.toNat < 1000) (h1 : w1.toNat < 1000)
    (hb : ∀ i : SCb.Idx, cb i = 0 ∨ cb i = 1) :
    rowAbs w0 w1 (padded cb) = ((mism cb (rowOf w0) (rowOf w1) : ℝ) : EReal) := by
  unfold rowAbs
  have hj : ∀ j : Fin 512,
      max (∑ k : Fin 1024, (hot k w0 - hot k w1) * padded cb (ix2 k j))
        (-(∑ k : Fin 1024, (hot k w0 - hot k w1) * padded cb (ix2 k j)))
      = ((if cb (ix2 (rowOf w0) j) ≠ cb (ix2 (rowOf w1) j) then (1 : ℝ) else 0 : ℝ) : EReal) := by
    intro j
    rw [inner_eq w0 w1 cb h0 h1 hb j]
    exact abs_bit (hb _) (hb _)
  rw [Finset.sum_congr rfl (fun j _ => hj j), coe_sum, Finset.sum_boole]
  rfl

end Cert.Hamming
-- ==== Proof.KernelLoss.lean ====
/-
  Under the precondition the kernel returns the Hamming loss.

  Point t's tiles are samples 2048·t … 2048·t + 2047 of the two index vectors, and the table block every point sees is
  the table extended by 24 zero rows (the host pads it and changes its float format, which over the extended reals
  changes nothing). With every index word below 1000 and every table entry 0 or 1, a sample's one-hot distance is its
  Hamming distance, so a tile's total is the sum of its samples' distances; the 128 tiles are the 262144 samples,
  each once; so the two shares' totals add up to the sum of all distances, and the scale 1/262144 makes it the loss.
-/
import proofs.«401725_j70729521431100_3_alg».proof.Proof.KernelValue
import proofs.«401725_j70729521431100_3_alg».proof.Proof.HammingLaws
import Idealize.ShloMosaic.Lib.KernelVsHost
import Mathlib.Algebra.BigOperators.Fin
import Mathlib.Logic.Equiv.Fin.Basic

noncomputable section

namespace Cert.KernelIdeal.Loss

open Cert.KernelIdeal Cert.KernelIdeal.Gen Cert.KernelIdeal.Acc Cert.Hamming
open Idealize.ShloMosaic Idealize.ShloMosaic.TcCoe Idealize.ShloMosaic.ValueIdx Idealize.SL.Sem

variable (m : (ℓ : Loc nD τ sig) → Buf (Elt Ideal) ℓ)

/-- The three argument arrays on core c, at their literal types. -/
abbrev arg0 (c : Dev nD) : SB.Idx → BitVec 32 := m ((c.tc : Thread nD τ).loc main_arg0)
abbrev arg1 (c : Dev nD) : SB.Idx → BitVec 32 := m ((c.tc : Thread nD τ).loc main_arg1)
abbrev table (c : Dev nD) : SCb.Idx → EReal := m ((c.tc : Thread nD τ).loc main_arg2)

/-- The input windows' block indices at point t: the point's number for the two index vectors, the origin for the table. -/
theorem idx_in : ∀ t : Fin cfg0.N, win0_0.index t (0 : Fin 1) = t.val ∧ win0_1.index t (0 : Fin 1) = t.val
    ∧ win0_2.index t (0 : Fin 2) = 0 ∧ win0_2.index t (1 : Fin 2) = 0 :=
  (by decide +kernel : ∀ t : Fin grid0.N, win0_0.index t (0 : Fin 1) = t.val ∧ win0_1.index t (0 : Fin 1) = t.val
    ∧ win0_2.index t (0 : Fin 2) = 0 ∧ win0_2.index t (1 : Fin 2) = 0)

/-- Sample r of point t's tile, by its number among the 262144. -/
def sample (t : Fin cfg0.N) (r : Fin 2048) : Fin 262144 :=
  ⟨2048 * t.val + r.val, by have := t.isLt; have := r.isLt; have := N128; omega⟩

/-- The first tile of point t reads the first index vector at the tile's samples. -/
theorem blk0_apply (c : Dev nD) (t : Fin cfg0.N) (r : Fin 2048) :
    blk0 m c t (ix1 r) = m ((c.tc : Thread nD τ).loc main_arg0) (ix1 (sample t r)) := by
  obtain ⟨e0, -, -, -⟩ := idx_in t
  show ((cfg0.win 0).blk t).view.read (Elt Ideal) (V m c main_arg0) (ix1 r) = _
  rw [View.read_apply]
  show V m c main_arg0 (((cfg0.win 0).blk t).view.emb (ix1 r)) = _
  rw [V_main_arg0]
  refine congrArg _ ?_
  funext a
  refine Fin.ext ?_
  match a with
  | ⟨0, _⟩ =>
    show win0_0.index t (0 : Fin 1) * 2048 + 1 * r.val = 2048 * t.val + r.val
    rw [e0]; omega

/-- The second tile likewise. -/
theorem blk1_apply (c : Dev nD) (t : Fin cfg0.N) (r : Fin 2048) :
    blk1 m c t (ix1 r) = m ((c.tc : Thread nD τ).loc main_arg1) (ix1 (sample t r)) := by
  obtain ⟨-, e1, -, -⟩ := idx_in t
  show ((cfg0.win 1).blk t).view.read (Elt Ideal) (V m c main_arg1) (ix1 r) = _
  rw [View.read_apply]
  show V m c main_arg1 (((cfg0.win 1).blk t).view.emb (ix1 r)) = _
  rw [V_main_arg1]
  refine congrArg _ ?_
  funext a
  refine Fin.ext ?_
  match a with
  | ⟨0, _⟩ =>
    show win0_1.index t (0 : Fin 1) * 2048 + 1 * r.val = 2048 * t.val + r.val
    rw [e1]; omega

/-- The table the region finds: the argument table with 24 zero rows appended. -/
theorem table_eq (c : Dev nD) :
    (V m c main_v1 : S1024x512.Idx → Elt Ideal .bf16) = padded (m ((c.tc : Thread nD τ).loc main_arg2)) := by
  have e : (V m c main_v1 : S1024x512.Idx → Elt Ideal .bf16)
      = truncf .bf16 (pad S1024x512 ![0, 0] ![24, 0] ![0, 0] (m ((c.tc : Thread nD τ).loc main_arg2))
          (sitofp (F := Ideal) .f32 (constantI S_ 32 0#32)) pads_S1000x512_S1024x512_0240_000 h_S_) bitsLt_bf16_f32 := by
    dsimp only [V, V0]
    simp only [hostOps0, hostOps0_1, hostOps0_2, List.flatten_cons, List.flatten_nil, List.append_nil, List.cons_append,
      List.nil_append]
    after_results
    rfl
  rw [e]
  funext i
  obtain ⟨k, j, rfl⟩ : ∃ (k : Fin 1024) (j : Fin 512), i = ix2 k j := ⟨i 0, i 1, eq_ix2 i⟩
  show pad S1024x512 ![0, 0] ![24, 0] ![0, 0] (m ((c.tc : Thread nD τ).loc main_arg2))
      (sitofp (F := Ideal) .f32 (constantI S_ 32 0#32)) pads_S1000x512_S1024x512_0240_000 h_S_ (ix2 k j) = _
  unfold padded
  by_cases h : k.val < 1000
  · rw [dif_pos (show ((ix2 k j : S1024x512.Idx) 0).val < 1000 from h)]
    refine pad_apply_of_inside _ _ _ _ _ _ _ (ix2 k j) (ix2 (⟨k.val, h⟩ : Fin 1000) j) fun a => ?_
    match a with
    | ⟨0, _⟩ => show k.val = 0 + k.val * (0 + 1); omega
    | ⟨1, _⟩ => show j.val = 0 + j.val * (0 + 1); omega
  · rw [dif_neg (show ¬((ix2 k j : S1024x512.Idx) 0).val < 1000 from h)]
    refine (pad_apply_of_not_inside _ _ _ _ _ _ _ (ix2 k j) (0 : Fin 2) ?_).trans ?_
    · show ¬(0 ≤ k.val ∧ (k.val - 0) % (0 + 1) = 0 ∧ (k.val - 0) / (0 + 1) < 1000)
      omega
    · show ((((0#32 : BitVec 32).toInt : ℤ) : ℝ) : EReal) = 0
      norm_num

/-- Every point's table block is that padded table. -/
theorem blk2_eq (c : Dev nD) (t : Fin cfg0.N) : blk2 m c t = padded (m ((c.tc : Thread nD τ).loc main_arg2)) := by
  obtain ⟨-, -, e2, e3⟩ := idx_in t
  funext i
  show ((cfg0.win 2).blk t).view.read (Elt Ideal) (V m c main_v1) i = _
  rw [View.read_apply]
  show V m c main_v1 (((cfg0.win 2).blk t).view.emb i) = _
  rw [table_eq]
  refine congrArg _ ?_
  funext a
  refine Fin.ext ?_
  match a with
  | ⟨0, _⟩ => show win0_2.index t (0 : Fin 2) * 1024 + 1 * (i 0).val = (i 0).val; rw [e2]; omega
  | ⟨1, _⟩ => show win0_2.index t (1 : Fin 2) * 512 + 1 * (i 1).val = (i 1).val; rw [e3]; omega

/-- A tile's total is the sum of its samples' distances. -/
theorem tile_eq (c : Dev nD) (t : Fin cfg0.N)
    (h0 : ∀ b : Fin 262144, (arg0 m c (ix1 b)).toNat < 1000)
    (h1 : ∀ b : Fin 262144, (arg1 m c (ix1 b)).toNat < 1000)
    (hb : ∀ i : SCb.Idx, table m c i = 0 ∨ table m c i = 1) :
    tile m c t = ∑ r : Fin 2048, dist (arg0 m c) (arg1 m c) (table m c) (sample t r) := by
  unfold tile tileSum
  refine Finset.sum_congr rfl fun r _ => ?_
  rw [blk0_apply m c t r, blk1_apply m c t r, blk2_eq m c t]
  exact rowAbs_eq _ _ (table m c) (h0 _) (h1 _) hb

/-- The 128 tiles of 2048 samples are the 262144 samples, each once. -/
theorem sum_tiles (N : ℕ) (hN : N = 128) (f : Fin 262144 → EReal) :
    (∑ t : Fin N, ∑ r : Fin 2048, f ⟨2048 * t.val + r.val, by have := t.isLt; have := r.isLt; omega⟩) = ∑ b, f b := by
  subst hN
  rw [← Fintype.sum_prod_type']
  refine Fintype.sum_equiv (finProdFinEquiv (m := 128) (n := 2048)) _ f fun x => congrArg f (Fin.ext ?_)
  show 2048 * x.1.val + x.2.val = x.2.val + 2048 * x.1.val
  omega

theorem total0_eq (c : Dev nD) : total0 m c = ∑ s ∈ Finset.range 64, tileN m c s := by
  unfold total0
  rw [acc_eq]
  refine Finset.sum_congr rfl fun s _ => ?_
  rw [show 64 * (63 / 64) + s = s from by omega]

theorem total1_eq (c : Dev nD) : total1 m c = ∑ s ∈ Finset.range 64, tileN m c (64 + s) := by
  unfold total1
  rw [acc_eq]

/-- The two shares' totals are the sum of all the tiles' totals. -/
theorem totals (c : Dev nD) : total0 m c + total1 m c = ∑ t : Fin cfg0.N, tile m c t := by
  rw [total0_eq, total1_eq, ← Finset.sum_range_add (fun p => tileN m c p) 64 64,
    show (64 + 64) = cfg0.N from N128.symm, Finset.sum_range]
  exact Finset.sum_congr rfl fun t _ => tileN_of_lt m c t.val t.isLt

/-- THE KERNEL'S VALUE: under the precondition's facts, the scaled sum of the two totals is the loss. -/
theorem kernel_value (c : Dev nD)
    (h0 : ∀ b : Fin 262144, (arg0 m c (ix1 b)).toNat < 1000)
    (h1 : ∀ b : Fin 262144, (arg1 m c (ix1 b)).toNat < 1000)
    (hb : ∀ i : SCb.Idx, table m c i = 0 ∨ table m c i = 1) :
    (total0 m c + total1 m c) * ((1 / 262144 : ℝ) : EReal) = loss (arg0 m c) (arg1 m c) (table m c) := by
  unfold loss
  rw [totals, Finset.sum_congr rfl (fun t _ => tile_eq m c t h0 h1 hb)]
  refine congrArg (· * ((1 / 262144 : ℝ) : EReal)) ?_
  exact sum_tiles cfg0.N N128 _

end Cert.KernelIdeal.Loss

end
-- ==== Proof.lean ====
/-
  The Hamming loss by a one-hot matrix product equals the Hamming loss by row lookup.

  Inputs: two vectors of 262144 class words and a table of 1000 codewords of 512 float entries. The precondition says
  every table entry is finite, every class word is between 0 and 999, and every table entry is 0 or 1 (the codewords are
  binary). The reference looks up the two rows each sample names, counts the positions where they differ, and takes
  the mean of the counts. The kernel never looks a row up: for each tile of 2048 samples it forms the matrix of class
  indicators of the first words minus that of the second words, multiplies it into the table (padded to 1024 rows),
  and sums the absolute values; on a binary table the product's entry is the difference of two entries that are 0 or
  1, whose absolute value is 1 exactly where the rows differ. It accumulates the tiles' totals over each of two halves
  of the grid, adds the two halves' totals, and multiplies by 2⁻¹⁸ = 1/262144. Over the extended reals both programs
  therefore end at one number, `Cert.Hamming.loss` of the arguments: the sum over the samples of their rows' Hamming
  distance, times 1/262144 (the reference's division by 262144 is that product).

  The frames of the two kernel programs are the generated ones; the reference's frame is its generated run with the
  result dropped; the idealization rewrote nothing.
-/
import proofs.«401725_j70729521431100_3_alg».proof.Defs
import proofs.«401725_j70729521431100_3_alg».proof.Proof.Gen.Kernel
import proofs.«401725_j70729521431100_3_alg».proof.Proof.Gen.Kernel.Frame
import proofs.«401725_j70729521431100_3_alg».proof.Proof.Gen.KernelIdeal
import proofs.«401725_j70729521431100_3_alg».proof.Proof.Gen.KernelIdeal.Frame
import proofs.«401725_j70729521431100_3_alg».proof.Proof.Gen.ReferenceIdeal
import proofs.«401725_j70729521431100_3_alg».proof.Proof.Gen.ReferenceIdeal.Run
import proofs.«401725_j70729521431100_3_alg».proof.Proof.Gen.ReferenceIdeal.Read
import proofs.«401725_j70729521431100_3_alg».proof.Proof.Gen.Pre_finite_inputs
import proofs.«401725_j70729521431100_3_alg».proof.Proof.PreFacts
import proofs.«401725_j70729521431100_3_alg».proof.Proof.RefValue
import proofs.«401725_j70729521431100_3_alg».proof.Proof.KernelValue
import proofs.«401725_j70729521431100_3_alg».proof.Proof.KernelLoss
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the Hamming loss of the arguments: the kernel by its accumulated one-hot totals, the
    reference by its row lookups and counts, the precondition giving the index ranges both need and the binary table
    the kernel needs. -/
theorem algebraic : Cert.algebraic_KernelIdeal_ReferenceIdeal := by
  intro m ρ m' ρ' hpre hagree
  have facts := fun c => Cert.Hamming.Pre.pre_facts (Cert.KernelIdeal.Loss.arg0 m c) (Cert.KernelIdeal.Loss.arg1 m c)
    (Cert.KernelIdeal.Loss.table m c) (hpre c)
  refine ⟨fun c => fun _ => Cert.Hamming.loss (Cert.KernelIdeal.Loss.arg0 m c) (Cert.KernelIdeal.Loss.arg1 m c)
    (Cert.KernelIdeal.Loss.table m c), ?_, ?_⟩
  · refine (θ_run Cert.KernelIdeal.defs _ _).mono (fun _ h c => ?_) (Cert.KernelIdeal.Acc.run m ρ)
    obtain ⟨f0, f1, fb⟩ := facts c
    refine ⟨(h c).1.trans ?_, (h c).2⟩
    funext _
    exact Cert.KernelIdeal.Loss.kernel_value m c f0 f1 fb
  · refine (θ_run Cert.ReferenceIdeal.defs _ _).mono (fun _ h c => ?_)
      (Cert.ReferenceIdeal.Value.run (F := Ideal) m' ρ')
    obtain ⟨f0, f1, fb⟩ := facts c
    refine ⟨(h c).1.trans ?_, (h c).2⟩
    rw [(hagree c).1, (hagree c).2.1, (hagree c).2.2]
    exact (Cert.ReferenceIdeal.Read.val_main_v19_eq _ _ _).trans
      (Cert.ReferenceIdeal.RefValue.ref_value _ _ _ f0 f1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
